-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x8192 : Shape := ⟨2, ![8192, 8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S256x8192 .f32) (main_arg1 : FVec F S8192x8192 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S256x8192 : Shape := ⟨2, ![256, 8192]⟩
abbrev S8192x8192 : Shape := ⟨2, ![8192, 8192]⟩
abbrev S256x2048 : Shape := ⟨2, ![256, 2048]⟩
abbrev S1024x2048 : Shape := ⟨2, ![1024, 2048]⟩
abbrev S256x1024 : Shape := ⟨2, ![256, 1024]⟩
abbrev S256x8192x1 : Shape := ⟨3, ![256, 8192, 1]⟩

abbrev nBuf : Space → Nat
  | .hbm => 4
  | .vmem => 7
  | .smem => 0
  | _ => 0

abbrev bufTy : (tb : Table) → Fin (tcTables nBuf tb) → BufTy
  | .hbm, ⟨0, _⟩ => ⟨S256x8192, .f32⟩
  | .hbm, ⟨1, _⟩ => ⟨S8192x8192, .f32⟩
  | .hbm, ⟨2, _⟩ => ⟨S256x8192, .f32⟩
  | .hbm, ⟨3, _⟩ => ⟨S256x8192x1, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S1024x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  bcast_S256x8192_S256x8192x1_0_1 : S256x8192.BroadcastsInDim S256x8192x1 (![0, 1] : Fin 2 → Fin S256x8192x1.rank)
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x8192.size a
  hwx0_0 : ∀ i : grid0.Coords, EltTy.bits .f32 = 32 ∨ (Rect.block (s := S256x8192) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x8192.size a
  hwx0_2 : ∀ i : grid0.Coords, EltTy.bits .f32 = 32 ∨ (Rect.block (s := S256x8192) S256x1024.size (cc0_transform_2 i) (hinb0_2 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x8192 : Shape := ⟨2, ![256, 8192]⟩
abbrev S8192x8192 : Shape := ⟨2, ![8192, 8192]⟩
abbrev S256x8192x1 : Shape := ⟨3, ![256, 8192, 1]⟩

abbrev nBuf : Space → Nat
  | .hbm => 4
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S8192x8192, .f32⟩
  | .hbm, ⟨2, _⟩ => ⟨S256x8192, .f32⟩
  | .hbm, ⟨3, _⟩ => ⟨S256x8192x1, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S256x8192_S256x8192x1_0_1 : S256x8192.BroadcastsInDim S256x8192x1 (![0, 1] : Fin 2 → Fin S256x8192x1.rank)
  dot_S256x8192_S8192x8192_S256x8192_1_1_0_0_n_n_wf : DotDims.WF S256x8192 S8192x8192 S256x8192 [1] [1] [0] [0] [] []

variable [Facts₀]

def dot_S256x8192_S8192x8192_S256x8192_1_1_0_0_n_n : DotDims S256x8192 S8192x8192 S256x8192 where
  lhsContracting := [1]
  rhsContracting := [1]
  lhsNonContracting := [0]
  rhsNonContracting := [0]
  lhsBatch := []
  rhsBatch := []
  wf := dot_S256x8192_S8192x8192_S256x8192_1_1_0_0_n_n_wf

class Facts : Prop extends Facts₀ where

variable [Facts]
-- ==== Proof.Pieces.lean ====
/-
  What one grid point leaves behind, as a value.

  The body loads the `x` block (256 × 2048), the `u` block (1024 × 2048) and the accumulator
  (256 × 1024), and stores accumulator + block product back, whole. At a first reduction step the
  accumulator is first overwritten with zeros, so the value added to is the zero block; at a last
  reduction step the accumulator is then copied, whole, into the output block. Each store covers
  its buffer, so what the buffer holds afterwards is the last store's payload: `step x u acc`
  below, the same term at all three kinds of point, for every float instance.
-/
import proofs.«159180_j52269751992785_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

/-- A whole block is the rectangle at offset zero. -/
theorem origin : (![0, 0] : Fin 2 → Nat) = fun _ => 0 := funext fun a => by fin_cases a <;> rfl

/-- The accumulator after one step: what it held plus the product of the two blocks. -/
abbrev step (x : Vec F S256x2048 .f32) (u : Vec F S1024x2048 .f32) (acc : Vec F S256x1024 .f32) : Vec F S256x1024 .f32 :=
  k0_pay2 x u acc

/-- The block of zeros a first reduction step starts from. -/
abbrev zeros : Vec F S256x1024 .f32 := k0_pay1 (F := F)

/-- A middle reduction step leaves the accumulator one step on. -/
theorem acc_middle (c : Dev nD) (i : grid0.Coords) (a2 : Memref sig .tc .vmem S256x2048 .f32) (h2 : a2.IsWhole) (a3 : Memref sig .tc .vmem S1024x2048 .f32) (h3 : a3.IsWhole) (a4 : Memref sig .tc .vmem S256x1024 .f32) (h4 : a4.IsWhole) (a5 : Memref sig .tc .vmem S256x1024 .f32) (h5 : a5.IsWhole) (hc0 : ¬cond0_0 i) (hc1 : ¬cond0_1 i)
    (x : Vec F S256x2048 .f32) (u : Vec F S1024x2048 .f32) (acc : Vec F S256x1024 .f32) :
    sout0_B_0 c i a2 h2 a3 h3 a4 h4 a5 h5 hc0 hc1 x u acc = step x u acc := by
  unfold sout0_B_0
  rw [View.read_writes_eq_canon _ _ _ (scover0_B_0 c i a2 h2 a3 h3 a4 h4 a5 h5 hc0 hc1 x u acc)]
  unfold kernelRun0_B
  dsimp only
  sl_unfold_words
  rw [View.canon_unit_zero origin]
  simp only [View.readAt_eq_ld, h2.read_unread, h3.read_unread, h5.read_unread,
    View.ld_unit_zero (S := S256x2048) origin, View.ld_unit_zero (S := S1024x2048) origin,
    View.ld_unit_zero (S := S256x1024) origin]

/-- A first reduction step leaves the accumulator one step on from zeros: the zero store is read back,
    then covered by the step's own store. -/
theorem acc_first (c : Dev nD) (i : grid0.Coords) (a2 : Memref sig .tc .vmem S256x2048 .f32) (h2 : a2.IsWhole) (a3 : Memref sig .tc .vmem S1024x2048 .f32) (h3 : a3.IsWhole) (a4 : Memref sig .tc .vmem S256x1024 .f32) (h4 : a4.IsWhole) (a5 : Memref sig .tc .vmem S256x1024 .f32) (h5 : a5.IsWhole) (hc0 : cond0_0 i) (hc1 : ¬cond0_1 i)
    (x : Vec F S256x2048 .f32) (u : Vec F S1024x2048 .f32) :
    sout0_A_0 c i a2 h2 a3 h3 a4 h4 a5 h5 hc0 hc1 x u = step x u zeros := by
  unfold sout0_A_0
  rw [View.read_writes_eq_canon _ _ _ (scover0_A_0 c i a2 h2 a3 h3 a4 h4 a5 h5 hc0 hc1 x u)]
  unfold kernelRun0_A
  dsimp only
  sl_unfold_words
  rw [View.canon_cons_unit_zero (S := S256x1024) origin]
  simp only [View.readAt_eq_ld, h2.read_unread, h3.read_unread,
    View.readCov_unit_zero (S := S256x1024) _ origin,
    View.ld_unit_zero (S := S256x2048) origin, View.ld_unit_zero (S := S1024x2048) origin,
    View.ld_unit_zero (S := S256x1024) origin]

/-- A last reduction step leaves the accumulator one step on, -/
theorem acc_last (c : Dev nD) (i : grid0.Coords) (a2 : Memref sig .tc .vmem S256x2048 .f32) (h2 : a2.IsWhole) (a3 : Memref sig .tc .vmem S1024x2048 .f32) (h3 : a3.IsWhole) (a4 : Memref sig .tc .vmem S256x1024 .f32) (h4 : a4.IsWhole) (a5 : Memref sig .tc .vmem S256x1024 .f32) (h5 : a5.IsWhole) (hc0 : ¬cond0_0 i) (hc1 : cond0_1 i)
    (x : Vec F S256x2048 .f32) (u : Vec F S1024x2048 .f32) (acc : Vec F S256x1024 .f32) :
    sout0_C_0 c i a2 h2 a3 h3 a4 h4 a5 h5 hc0 hc1 x u acc = step x u acc := by
  unfold sout0_C_0
  rw [View.read_writes_eq_canon _ _ _ (scover0_C_0 c i a2 h2 a3 h3 a4 h4 a5 h5 hc0 hc1 x u acc)]
  unfold kernelRun0_C
  dsimp only
  sl_unfold_words
  rw [View.canon_unit_zero origin]
  simp only [View.readAt_eq_ld, h2.read_unread, h3.read_unread, h5.read_unread,
    View.ld_unit_zero (S := S256x2048) origin, View.ld_unit_zero (S := S1024x2048) origin,
    View.ld_unit_zero (S := S256x1024) origin]

/-- and the output block at that same value: the accumulator read back after its store. -/
theorem out_last (c : Dev nD) (i : grid0.Coords) (a2 : Memref sig .tc .vmem S256x2048 .f32) (h2 : a2.IsWhole) (a3 : Memref sig .tc .vmem S1024x2048 .f32) (h3 : a3.IsWhole) (a4 : Memref sig .tc .vmem S256x1024 .f32) (h4 : a4.IsWhole) (a5 : Memref sig .tc .vmem S256x1024 .f32) (h5 : a5.IsWhole) (hc0 : ¬cond0_0 i) (hc1 : cond0_1 i)
    (x : Vec F S256x2048 .f32) (u : Vec F S1024x2048 .f32) (acc : Vec F S256x1024 .f32) :
    out0_C_2 c i a2 h2 a3 h3 a4 h4 a5 h5 hc0 hc1 x u acc = step x u acc := by
  unfold out0_C_2
  rw [View.read_writes_eq_canon _ _ _ (cover0_C_2 c i a2 h2 a3 h3 a4 h4 a5 h5 hc0 hc1 x u acc)]
  unfold kernelRun0_C
  dsimp only
  sl_unfold_words
  rw [View.canon_unit_zero origin]
  simp only [View.readAt_eq_ld, h2.read_unread, h3.read_unread, h5.read_unread,
    View.readCov_unit_zero (S := S256x1024) _ origin,
    View.ld_unit_zero (S := S256x2048) origin, View.ld_unit_zero (S := S1024x2048) origin,
    View.ld_unit_zero (S := S256x1024) origin]

end Cert.KernelIdeal.Steps

end
-- ==== Proof.StepValue.lean ====
/-
  One step of the accumulator, entry by entry, over the extended reals.

  At the ideal instance the narrowing of both blocks to bf16 is the identity and the matrix
  unit's product into a zero accumulator is the plain sum of products over the contracted
  axis — here axis 1 of BOTH blocks, the 2048 columns. So entry `(b, r)` of the accumulator
  after a step is what it held plus `∑ j, x[b, j] · u[r, j]`, and the block of zeros a first
  step starts from is zero everywhere.
-/
import proofs.«159180_j52269751992785_1_alg».proof.Proof.Pieces
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Steps

open Cert.KernelIdeal Cert.KernelIdeal.Gen

/-- The left operand is read at the output's row … -/
theorem lhs_row (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
/-- … and at the contracted column; -/
theorem lhs_col (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
/-- the right operand at the row the output's column names … -/
theorem rhs_row (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
/-- … and at the same contracted column. -/
theorem rhs_col (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The product of the two blocks into a zero accumulator, at entry `(b, r)`: row `b` of the left block against
    row `r` of the right one. -/
theorem product_apply (x : FVec Ideal S256x2048 .bf16) (u : FVec Ideal S1024x2048 .bf16) (b : Fin 256) (r : Fin 1024) :
    matmul dot_S256x2048_S1024x2048_S256x1024_1_1_0_0_n_n none x u (constant (F := Ideal) S256x1024 .f32 0x00000000#32) (ix2 b r)
      = ∑ j : Fin 2048, x (ix2 b j) * u (ix2 r j) := by
  simp only [matmul]
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 b r) ((contrEquiv1 dot_S256x2048_S1024x2048_S256x1024_1_1_0_0_n_n 2048 rfl rfl).symm k) = ix2 b k := funext fun a => Fin.ext (by
    match a with
    | ⟨0, _⟩ => exact lhs_row _ _
    | ⟨1, _⟩ => exact (lhs_col _ _).trans hk)
  have er : dot_S256x2048_S1024x2048_S256x1024_1_1_0_0_n_n.rhsIdx (ix2 b r) ((contrEquiv1 dot_S256x2048_S1024x2048_S256x1024_1_1_0_0_n_n 2048 rfl rfl).symm k) = ix2 r k := funext fun a => Fin.ext (by
    match a with
    | ⟨0, _⟩ => exact rhs_row _ _
    | ⟨1, _⟩ => exact (rhs_col _ _).trans hk)
  rw [el, er]

/-- ONE STEP AT AN ENTRY: what the accumulator held there plus row `b` of the `x` block against row `r` of the
    `u` block. -/
theorem step_apply (x : Vec Ideal S256x2048 .f32) (u : Vec Ideal S1024x2048 .f32) (acc : Vec Ideal S256x1024 .f32)
    (b : Fin 256) (r : Fin 1024) :
    step (F := Ideal) x u acc (ix2 b r) = acc (ix2 b r) + ∑ j : Fin 2048, x (ix2 b j) * u (ix2 r j) := by
  show k0_pay2 (F := Ideal) x u acc (ix2 b r) = _
  unfold k0_pay2
  rw [shapeCast_self, addf_apply, product_apply]
  rfl

/-- The block a first step starts from is zero at every entry. -/
theorem zeros_apply (j : S256x1024.Idx) : zeros (F := Ideal) j = 0 := by
  show k0_pay1 (F := Ideal) j = 0
  unfold k0_pay1
  rw [shapeCast_self]
  exact Ideal.ofBits_zero_f32

end Cert.KernelIdeal.Steps

end
-- ==== Proof.Spec.lean ====
/-
  The value both programs compute, written once over the extended reals.

  For `x : [256, 8192]` and `u : [8192, 8192]` the result entry `(b, i)` is the contraction
  `∑ j, x[b, j] · u[i, j]` of row `b` of `x` with row `i` of `u`. The kernel reaches it in four
  steps of 2048 columns, so the contraction is stated for a PREFIX of the columns (`rowDot … n`
  sums the first `n` of them) together with the law for one more step (`rowDot_step`).
  Columns are natural numbers here, an entry past the last column reading zero: a prefix is then
  a sum over `Finset.range`, a step is `Finset.sum_range_add`, and over all 8192 columns the sum
  is the one over `Fin 8192` (`rowDot_full`). Only commutativity and associativity of the
  extended reals' addition are used: nothing here needs a finite entry.
-/
import Idealize.ShloMosaic.PureOps.Ideal
import Idealize.ShloMosaic.Lib.ValueIdx
import Mathlib.Algebra.BigOperators.Fin

noncomputable section

open scoped BigOperators

namespace Cert.DenseGate

open Idealize.ShloMosaic Idealize.ShloMosaic.ValueIdx

/-- The shape of `x` and of the result: 256 rows of 8192 entries. -/
abbrev Sx : Shape := ⟨2, ![256, 8192]⟩
/-- The shape of `u`: 8192 rows of 8192 entries. -/
abbrev Su : Shape := ⟨2, ![8192, 8192]⟩

variable (x : Sx.Idx → EReal) (u : Su.Idx → EReal)

/-- Entry `(b, j)` of `x`; zero past the last column. -/
def xAt (b : Fin 256) (j : ℕ) : EReal := if h : j < 8192 then x (ix2 b ⟨j, h⟩) else 0

/-- Entry `(i, j)` of `u`; zero past the last column. -/
def uAt (i : Fin 8192) (j : ℕ) : EReal := if h : j < 8192 then u (ix2 i ⟨j, h⟩) else 0

/-- Row `b` of `x` against row `i` of `u`, over the first `n` columns. -/
def rowDot (b : Fin 256) (i : Fin 8192) (n : ℕ) : EReal := ∑ j ∈ Finset.range n, xAt x b j * uAt u i j

/-- Over no column the contraction is zero. -/
theorem rowDot_zero (b : Fin 256) (i : Fin 8192) : rowDot x u b i 0 = 0 := Finset.sum_range_zero _

/-- One more step of 2048 columns adds those columns' products. -/
theorem rowDot_step (b : Fin 256) (i : Fin 8192) (n : ℕ) :
    rowDot x u b i (n + 2048) = rowDot x u b i n + ∑ j : Fin 2048, xAt x b (n + j.val) * uAt u i (n + j.val) := by
  unfold rowDot
  rw [Finset.sum_range_add, Finset.sum_range fun j => xAt x b (n + j) * uAt u i (n + j)]

/-- Over all the columns it is the sum over `Fin 8192` of the entries' products. -/
theorem rowDot_full (b : Fin 256) (i : Fin 8192) :
    rowDot x u b i 8192 = ∑ k : Fin 8192, x (ix2 b k) * u (ix2 i k) := by
  unfold rowDot
  rw [Finset.sum_range]
  refine Finset.sum_congr rfl fun k _ => ?_
  unfold xAt uAt
  rw [dif_pos k.isLt, dif_pos k.isLt]

/-- An entry of `x` at a column inside the range. -/
theorem xAt_of_lt (b : Fin 256) (j : ℕ) (h : j < 8192) : xAt x b j = x (ix2 b ⟨j, h⟩) := dif_pos h

/-- An entry of `u` at a column inside the range. -/
theorem uAt_of_lt (i : Fin 8192) (j : ℕ) (h : j < 8192) : uAt u i j = u (ix2 i ⟨j, h⟩) := dif_pos h

/-- THE RESULT: entry `(b, i)` is row `b` of `x` against row `i` of `u`, over all 8192 columns. -/
def gate : Sx.Idx → EReal := fun o => rowDot x u (o 0) (o 1) 8192

end Cert.DenseGate

end
-- ==== Proof.Blocks.lean ====
/-
  Which entries of `x` and `u` a grid point's blocks are.

  The grid is 8 × 4: point `t` has output-tile coordinate `t / 4` and reduction coordinate `t % 4`.
  Its `x` block is all 256 rows at columns `2048 · (t % 4) + j`; its `u` block is rows
  `1024 · (t / 4) + r` at those same columns; the output block it belongs to is all 256 rows at
  columns `1024 · (t / 4) + r`. The index maps are decided once over the 32 points.
-/
import proofs.«159180_j52269751992785_1_alg».proof.Proof.Gen.KernelIdeal.Frame
import proofs.«159180_j52269751992785_1_alg».proof.Proof.Spec
import Idealize.ShloMosaic.Lib.Pipeline.Value

noncomputable section

open Idealize.ShloMosaic Idealize.ShloMosaic.TcCoe Idealize.SL.Sem Idealize.ShloMosaic.ValueIdx
open Cert.DenseGate (xAt uAt xAt_of_lt uAt_of_lt)

namespace Cert.KernelIdeal.Steps

open Cert.KernelIdeal Cert.KernelIdeal.Gen

variable (m : (ℓ : Loc nD τ sig) → Buf (Elt Ideal) ℓ)

/-- The three index maps at point `t`, in terms of `t / 4` and `t % 4`. -/
theorem index_maps : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4 :=
  (by decide +kernel : ∀ t : Fin grid0.N, _)

/-- `x` as the region finds it, -/
abbrev xarr (c : Dev nD) : Vec Ideal S256x8192 .f32 := V m c main_arg0
/-- `u` as the region finds it, -/
abbrev uarr (c : Dev nD) : Vec Ideal S8192x8192 .f32 := V m c main_arg1
/-- and the two blocks point `t` is handed. -/
abbrev xblk (c : Dev nD) (t : Fin cfg0.N) : Vec Ideal S256x2048 .f32 := iblk m c 0 t
abbrev ublk (c : Dev nD) (t : Fin cfg0.N) : Vec Ideal S1024x2048 .f32 := iblk m c 1 t

/-- They are the arguments' launch contents: no host operation comes before the region. -/
theorem xarr_eq (c : Dev nD) : xarr m c = m ((c : Thread nD τ).loc main_arg0) := V_main_arg0 m c
theorem uarr_eq (c : Dev nD) : uarr m c = m ((c : Thread nD τ).loc main_arg1) := V_main_arg1 m c

/-- Entry `(b, j)` of point `t`'s `x` block is `x[b, 2048 · (t % 4) + j]`. -/
theorem xblk_apply (c : Dev nD) (t : Fin cfg0.N) (b : Fin 256) (j : Fin 2048) :
    xblk m c t (ix2 b j) = xAt (xarr m c) b (2048 * (t.val % 4) + j.val) := by
  obtain ⟨e0, e1, -, -, -, -⟩ := index_maps t
  have hj : 2048 * (t.val % 4) + j.val < 8192 := by have := j.isLt; omega
  rw [xAt_of_lt _ _ _ hj]
  unfold xblk iblk
  rw [View.read_apply]
  show V m c main_arg0 _ = V m c main_arg0 _
  congr 1
  funext a
  apply Fin.ext
  match a with
  | ⟨0, _⟩ => show win0_0.index t (0 : Fin 2) * 256 + 1 * b.val = b.val; omega
  | ⟨1, _⟩ => show win0_0.index t (1 : Fin 2) * 2048 + 1 * j.val = 2048 * (t.val % 4) + j.val; omega

/-- The row of `u` — the column of the result — that column `r` of point `t`'s tile is. -/
def tileRow (t : Fin cfg0.N) (r : Fin 1024) : Fin 8192 :=
  ⟨1024 * (t.val / 4) + r.val, by have := t.isLt; have : cfg0.N = 32 := N_0; have := r.isLt; omega⟩

/-- Entry `(r, j)` of point `t`'s `u` block is `u[1024 · (t / 4) + r, 2048 · (t % 4) + j]`. -/
theorem ublk_apply (c : Dev nD) (t : Fin cfg0.N) (r : Fin 1024) (j : Fin 2048) :
    ublk m c t (ix2 r j) = uAt (uarr m c) (tileRow t r) (2048 * (t.val % 4) + j.val) := by
  obtain ⟨-, -, e2, e3, -, -⟩ := index_maps t
  have hj : 2048 * (t.val % 4) + j.val < 8192 := by have := j.isLt; omega
  rw [uAt_of_lt _ _ _ hj]
  unfold ublk iblk
  rw [View.read_apply]
  show V m c main_arg1 _ = V m c main_arg1 _
  congr 1
  funext a
  apply Fin.ext
  match a with
  | ⟨0, _⟩ => show win0_1.index t (0 : Fin 2) * 1024 + 1 * r.val = 1024 * (t.val / 4) + r.val; omega
  | ⟨1, _⟩ => show win0_1.index t (1 : Fin 2) * 2048 + 1 * j.val = 2048 * (t.val % 4) + j.val; omega

end Cert.KernelIdeal.Steps

end
-- ==== Proof.Accum.lean ====
/-
  The accumulator after every grid point.

  Within one output tile (four consecutive points, `t % 4 = 0, 1, 2, 3`) the accumulator starts
  from zeros and gains one 2048-column slab of the contraction per point. So after point `t` its
  entry `(b, r)` is row `b` of `x` against row `1024 · (t / 4) + r` of `u` over the first
  `2048 · (t % 4) + 2048` columns: by induction on the point, the first point of a tile being the
  base (zero plus the first slab) and every later point adding its slab to what the point before
  left (the point before lies in the same tile). At a tile's last point all 8192 columns are in,
  and that is also what the point stores into its output block.
-/
import proofs.«159180_j52269751992785_1_alg».proof.Proof.StepValue
import proofs.«159180_j52269751992785_1_alg».proof.Proof.Blocks

noncomputable section

open scoped BigOperators
open Idealize.ShloMosaic Idealize.ShloMosaic.TcCoe Idealize.SL.Sem Idealize.ShloMosaic.ValueIdx
open Cert.DenseGate (xAt uAt rowDot rowDot_zero rowDot_step)

namespace Cert.KernelIdeal.Steps

open Cert.KernelIdeal Cert.KernelIdeal.Gen

variable (m : (ℓ : Loc nD τ sig) → Buf (Elt Ideal) ℓ)

/-- The slab of the contraction point `t` contributes to entry `(b, r)` of its tile. -/
theorem slab_eq (c : Dev nD) (t : Fin cfg0.N) (b : Fin 256) (r : Fin 1024) :
    ∑ j : Fin 2048, xblk m c t (ix2 b j) * ublk m c t (ix2 r j)
      = ∑ j : Fin 2048, xAt (xarr m c) b (2048 * (t.val % 4) + j.val) * uAt (uarr m c) (tileRow t r) (2048 * (t.val % 4) + j.val) :=
  Finset.sum_congr rfl fun j _ => by rw [xblk_apply, ublk_apply]

/-- A tile's first point leaves zero plus its slab. -/
theorem acc_at_first (c : Dev nD) (t : Fin cfg0.N) (h0 : t.val % 4 = 0) (b : Fin 256) (r : Fin 1024) :
    (outsAt0 m c t.val t.isLt).2 (ix2 b r) = ∑ j : Fin 2048, xblk m c t (ix2 b j) * ublk m c t (ix2 r j) := by
  have h1 : ¬t.val % 4 = 3 := by omega
  rw [outsAt0_A m c t h0 h1]
  dsimp only
  refine (congrFun (acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 b r)).trans ?_
  refine (step_apply (xblk m c t) (ublk m c t) zeros b r).trans ?_
  rw [zeros_apply, zero_add]

/-- A later point of a tile adds its slab to what the point before left. -/
theorem acc_at_later (c : Dev nD) (t : Fin cfg0.N) (h0 : ¬t.val % 4 = 0) (b : Fin 256) (r : Fin 1024) :
    (outsAt0 m c t.val t.isLt).2 (ix2 b r)
      = (outsAt0 m c (t.val - 1) (Nat.lt_of_le_of_lt (Nat.sub_le _ _) t.isLt)).2 (ix2 b r)
        + ∑ j : Fin 2048, xblk m c t (ix2 b j) * ublk m c t (ix2 r j) := by
  by_cases h1 : t.val % 4 = 3
  · rw [outsAt0_C m c t h0 h1]
    dsimp only
    refine (congrFun (acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 b r)).trans ?_
    exact step_apply (xblk m c t) (ublk m c t) _ b r
  · rw [outsAt0_B m c t h0 h1]
    dsimp only
    refine (congrFun (acc_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 b r)).trans ?_
    exact step_apply (xblk m c t) (ublk m c t) _ b r

/-- The point before a later point of a tile works on the same rows of `u`. -/
theorem tileRow_pred (n : ℕ) (h : n < cfg0.N) (h' : n - 1 < cfg0.N) (h0 : ¬n % 4 = 0) (r : Fin 1024) :
    tileRow ⟨n - 1, h'⟩ r = tileRow ⟨n, h⟩ r := by
  apply Fin.ext
  show 1024 * ((n - 1) / 4) + r.val = 1024 * (n / 4) + r.val
  omega

/-- THE ACCUMULATOR AFTER POINT `n`: the contraction over the columns seen so far in the point's tile. -/
theorem acc_after (c : Dev nD) : ∀ (n : ℕ) (h : n < cfg0.N) (b : Fin 256) (r : Fin 1024),
    (outsAt0 m c n h).2 (ix2 b r) = rowDot (xarr m c) (uarr m c) b (tileRow ⟨n, h⟩ r) (2048 * (n % 4) + 2048) := by
  intro n
  induction n using Nat.strong_induction_on with
  | _ n ih =>
    intro h b r
    by_cases h0 : n % 4 = 0
    · have e : 2048 * (n % 4) = 0 := by omega
      rw [acc_at_first m c ⟨n, h⟩ h0 b r, slab_eq]
      dsimp only
      rw [e, rowDot_step, rowDot_zero, zero_add]
    · have hp : n - 1 < n := by omega
      have h' : n - 1 < cfg0.N := by omega
      have e : 2048 * ((n - 1) % 4) + 2048 = 2048 * (n % 4) := by omega
      rw [acc_at_later m c ⟨n, h⟩ h0 b r, slab_eq]
      dsimp only
      rw [ih (n - 1) hp h' b r, tileRow_pred n h h' h0 r, e, rowDot_step]

end Cert.KernelIdeal.Steps

end
-- ==== Proof.Result.lean ====
/-
  The kernel's result.

  A tile's last point (`t % 4 = 3`) stores into its output block the accumulator it has just
  completed, so entry `(b, r)` of that block is row `b` of `x` against row `1024 · (t / 4) + r`
  of `u` over all 8192 columns: the block is the restriction of ONE function of the two
  arguments, `gate x u`, to columns `1024 · (t / 4) …`. Only those eight points write back, and
  their blocks tile the 256 × 8192 array (column `i` lies in the block of point
  `4 · (i / 1024) + 3`), so the array ends holding `gate x u`. The one host operation after the
  region appends a unit axis to that array.
-/
import proofs.«159180_j52269751992785_1_alg».proof.Proof.Accum
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)
open Cert.DenseGate (rowDot gate)

namespace Cert.KernelIdeal.Steps

open Cert.KernelIdeal Cert.KernelIdeal.Gen

variable (m : (ℓ : Loc nD τ sig) → Buf (Elt Ideal) ℓ) (ρ : Dev nD → PrngReg)

/-- The array the region writes, as one function of the two arguments. -/
abbrev product (c : Dev nD) : Vec Ideal S256x8192 .f32 := gate (xarr m c) (uarr m c)

/-- At a tile's last point the output block holds the completed contraction. -/
theorem out_at_last (c : Dev nD) (t : Fin cfg0.N) (h3 : t.val % 4 = 3) (b : Fin 256) (r : Fin 1024) :
    (outsAt0 m c t.val t.isLt).1 (ix2 b r) = rowDot (xarr m c) (uarr m c) b (tileRow t r) 8192 := by
  have h0 : ¬t.val % 4 = 0 := by omega
  have e : (outsAt0 m c t.val t.isLt).1 = (outsAt0 m c t.val t.isLt).2 := by
    rw [outsAt0_C m c t h0 h3]
    dsimp only
    exact (out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).trans
      (acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).symm
  have e2 : 2048 * (t.val % 4) + 2048 = 8192 := by omega
  rw [e, acc_after m c t.val t.isLt b r, e2]

/-- WHAT A WRITING POINT WRITES BACK is its block of `product`. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨-, -, -, -, e4, e5⟩ := index_maps t
  show (cfg0.win 2).cut (grid0.coords t) ((dats m 0 c).after 2 t) = _
  rw [after0_2]
  funext y
  obtain ⟨b, r, rfl⟩ : ∃ (b : Fin 256) (r : Fin 1024), (y : S256x1024.Idx) = ix2 b r := ⟨y 0, y 1, eq_ix2 y⟩
  rw [View.read_apply]
  have hemb : ((cfg0.win 2).blk t).view.emb (ix2 b r) = (ix2 b (tileRow t r) : S256x8192.Idx) := by
    funext a
    apply Fin.ext
    match a with
    | ⟨0, _⟩ => show win0_2.index t (0 : Fin 2) * 256 + 1 * b.val = b.val; omega
    | ⟨1, _⟩ => show win0_2.index t (1 : Fin 2) * 1024 + 1 * r.val = 1024 * (t.val / 4) + r.val; omega
  rw [hemb]
  exact out_at_last m c t h3 b r

/-- A column of the result lies in a point's block iff it lies in the block's range on each axis. -/
theorem mem_tile (t : Fin cfg0.N) (i : S256x8192.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

/-- Every entry of the result is written by the last point of its column's tile. -/
theorem covered (i : S256x8192.Idx) :
    ∃ t : Fin cfg0.N, (cfg0.win 2).flush t = true ∧ i ∈ ((cfg0.win 2).blk t).view.set := by
  have hi0 : (i 0).val < 256 := (i 0).isLt
  have hi1 : (i 1).val < 8192 := (i 1).isLt
  have hN : cfg0.N = 32 := N_0
  have ht : 4 * ((i 1).val / 1024) + 3 < cfg0.N := by omega
  obtain ⟨-, -, -, -, e4, e5⟩ := index_maps ⟨4 * ((i 1).val / 1024) + 3, ht⟩
  have e5' : win0_2.index ⟨4 * ((i 1).val / 1024) + 3, ht⟩ (1 : Fin 2) = (i 1).val / 1024 := by
    rw [e5]; show (4 * ((i 1).val / 1024) + 3) / 4 = _; omega
  refine ⟨⟨4 * ((i 1).val / 1024) + 3, ht⟩, (flush0_2 _).mpr (by show (4 * ((i 1).val / 1024) + 3) % 4 = 3; omega), ?_⟩
  rw [mem_tile]
  intro a
  match a with
  | ⟨0, _⟩ =>
    show win0_2.index ⟨4 * ((i 1).val / 1024) + 3, ht⟩ (0 : Fin 2) * 256 ≤ (i 0).val ∧ (i 0).val < win0_2.index ⟨4 * ((i 1).val / 1024) + 3, ht⟩ (0 : Fin 2) * 256 + 256
    omega
  | ⟨1, _⟩ =>
    show win0_2.index ⟨4 * ((i 1).val / 1024) + 3, ht⟩ (1 : Fin 2) * 1024 ≤ (i 1).val ∧ (i 1).val < win0_2.index ⟨4 * ((i 1).val / 1024) + 3, ht⟩ (1 : Fin 2) * 1024 + 1024
    omega

/-- THE ARRAY AFTER THE REGION is `product`. -/
theorem final (c : Dev nD) : (dats m 0 c).arrAt 2 cfg0.N = product m c :=
  (dats m 0 c).arrAt_eq_of_cover 2 (product m c) (flushed_eq m c) covered

/-- The host operation after the region: the unit axis appended to the region's array. -/
theorem tail_eq (c : Dev nD) :
    Pipeline.afterTail₀ cfgs (dats m) 0 (V0 m) [hostOps1] c main_v1
      = broadcastInDim S256x8192x1 ![0, 1] bcast_S256x8192_S256x8192x1_0_1 (product m c) := by
  unfold Pipeline.afterTail₀
  show StableHlo.after hostOps1 _ (Proc.devRef .tc main_v1) = _
  after_results
  exact congrArg _ ((Pipeline.withArrays_arr spec0 launch0.win.arr_inj c _ _ 2).trans (final m c))

/-- `product` over the arguments' launch contents: no host operation comes before the region. -/
theorem product_eq (c : Dev nD) :
    product m c = gate (m ((c : Thread nD τ).loc main_arg0)) (m ((c : Thread nD τ).loc main_arg1)) := by
  unfold product
  rw [xarr_eq, uarr_eq]

/-- THE RUN, READ: every weakly fair execution terminates with the result at `gate x u` with a unit axis
    appended, and both arguments unchanged. -/
theorem run : θ_run defs (onTc (τ := τ) (main (F := Ideal))) ⟨m, fun _ => 0, ρ⟩ fun r => ∀ c : Dev nD,
      r.2.mem ((c : Thread nD τ).loc main_v1)
        = broadcastInDim S256x8192x1 ![0, 1] bcast_S256x8192_S256x8192x1_0_1
            (gate (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (Pipeline.mem_restRefs_of main_v1 rfl (by decide))).trans ((tail_eq m c).trans (by rw [product_eq])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Steps

end
-- ==== Proof.RefValue.lean ====
/-
  The reference's contraction is `gate`.

  The reference is one `dot_general` contracting axis 1 of `x` with axis 1 of `u`, so its entry
  `(b, i)` is `∑ k, x[b, k] · u[i, k]` over `Fin 8192` (the generated read-at-an-index lemma),
  which is the contraction over all columns (`rowDot_full`): the two index functions of that
  lemma are the pairs `(b, k)` and `(i, k)`.
-/
import proofs.«159180_j52269751992785_1_alg».proof.Defs
import proofs.«159180_j52269751992785_1_alg».proof.Proof.Gen.ReferenceIdeal.Read
import proofs.«159180_j52269751992785_1_alg».proof.Proof.Spec

noncomputable section

open scoped BigOperators
open Idealize.ShloMosaic Idealize.ShloMosaic.TcCoe Idealize.SL.Sem Idealize.ShloMosaic.ValueIdx
open Cert.DenseGate (rowDot rowDot_full gate)

namespace Cert.ReferenceIdeal.RefValue

open Cert.ReferenceIdeal Cert.ReferenceIdeal.Gen Cert.ReferenceIdeal.Read

/-- The reference's product, entry by entry, is the contraction over all 8192 columns. -/
theorem dot_is_gate (x : (⟨S256x8192, .f32⟩ : BufTy).Contents (Elt Ideal)) (u : (⟨S8192x8192, .f32⟩ : BufTy).Contents (Elt Ideal)) :
    val_main_v0 (F := Ideal) x u = gate x u := by
  funext i
  obtain ⟨b, q, rfl⟩ : ∃ (b : Fin 256) (q : Fin 8192), (i : S256x8192.Idx) = ix2 b q := ⟨i 0, i 1, eq_ix2 i⟩
  rw [val_main_v0_apply]
  refine Eq.trans ?_ (rowDot_full x u b q).symm
  refine Finset.sum_congr rfl fun k _ => ?_
  have el : lidx_main_v0 (ix2 b q) k = ix2 b k :=
    funext fun a => Fin.ext (by match a with | ⟨0, _⟩ => rfl | ⟨1, _⟩ => rfl)
  have er : ridx_main_v0 (ix2 b q) k = ix2 q k :=
    funext fun a => Fin.ext (by match a with | ⟨0, _⟩ => rfl | ⟨1, _⟩ => rfl)
  rw [el, er]

end Cert.ReferenceIdeal.RefValue

end
-- ==== Proof.lean ====
/-
  A dense gate applied to a batch of state vectors: `out[b, i] = ∑ j, x[b, j] · u[i, j]` for
  `x : [256, 8192]`, `u : [8192, 8192]`, returned with a unit axis appended.

  The kernel tiles the result's columns in eight tiles of 1024 and the contraction in four slabs
  of 2048 columns: on an 8 × 4 grid, a tile's first point zeroes a 256 × 1024 accumulator, every
  point adds the product of its `x` block with its `u` block (both narrowed to bf16, the
  identity over the extended reals), and the tile's last point copies the accumulator into the
  output block. The reference is one `dot_general` over all 8192 columns.

  Over the extended reals both are the same sum. The kernel's accumulator after each point is a
  prefix of the contraction (Proof/Accum.lean, by induction on the point over the step's value,
  Proof/Pieces.lean and Proof/StepValue.lean, and the blocks' entries, Proof/Blocks.lean); at a
  tile's last point the prefix is the whole contraction, the eight written blocks tile the array
  (Proof/Result.lean), and the reference's sum over `Fin 8192` is that contraction
  (Proof/RefValue.lean, Proof/Spec.lean). Splitting a finite sum into consecutive slabs uses only
  that addition of extended reals is commutative and associative, so no entry need be finite:
  the precondition is not opened. The ideal pass rewrote nothing, so `preserves` is `True`.
-/
import proofs.«159180_j52269751992785_1_alg».proof.Defs
import proofs.«159180_j52269751992785_1_alg».proof.Proof.Gen.Kernel
import proofs.«159180_j52269751992785_1_alg».proof.Proof.Gen.Kernel.Frame
import proofs.«159180_j52269751992785_1_alg».proof.Proof.Gen.KernelIdeal
import proofs.«159180_j52269751992785_1_alg».proof.Proof.Gen.KernelIdeal.Frame
import proofs.«159180_j52269751992785_1_alg».proof.Proof.Gen.ReferenceIdeal
import proofs.«159180_j52269751992785_1_alg».proof.Proof.Gen.ReferenceIdeal.Run
import proofs.«159180_j52269751992785_1_alg».proof.Proof.Gen.Pre_finite_inputs
import proofs.«159180_j52269751992785_1_alg».proof.Proof.Result
import proofs.«159180_j52269751992785_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves `x` and `u` as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on `x` and `u` both programs end with the contraction of every row of `x` with
    every row of `u` over all 8192 columns, a unit axis appended: the kernel's tiled accumulation
    (`Steps.run`) and the reference's single product (`dot_is_gate`) are one function of the arguments. -/
theorem algebraic : Cert.algebraic_KernelIdeal_ReferenceIdeal := by
  intro m ρ m' ρ' _ hagree
  refine ⟨_, Cert.KernelIdeal.Steps.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact congrArg (broadcastInDim _ _ _) (Cert.ReferenceIdeal.RefValue.dot_is_gate _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
